-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x100000x128 : Shape := ⟨3, ![1, 100000, 128]⟩
abbrev S128x128 : Shape := ⟨2, ![128, 128]⟩
abbrev S128 : Shape := ⟨1, ![128]⟩
abbrev S_ : Shape := ⟨0, ![]⟩

class Facts : Prop where
  bcast_S_S1x100000x128 : S_.BroadcastsInDim S1x100000x128 (![] : Fin 0 → Fin S1x100000x128.rank)
  reducesTo_S1x100000x128_S_d0_1_2 : S1x100000x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S1x100000x128 .f32) (main_arg1 : FVec F S128x128 .f32) (main_arg2 : FVec F S128x128 .f32) (main_arg3 : FVec F S128 .f32) : IVec S_ 1 :=
  let main_v0 : FVec F S1x100000x128 .f32 := Host.absf main_arg0
  let main_cst : FVec F S_ .f32 := constant S_ .f32 0x7F800000#32
  let main_v1 : FVec F S1x100000x128 .f32 := broadcastInDim S1x100000x128 ![] bcast_S_S1x100000x128 main_cst
  let main_v2 : IVec S1x100000x128 1 := cmpf .olt main_v0 main_v1
  let main_c : IVec S_ 1 := constantI S_ 1 1#1
  let main_v3 : IVec S_ 1 := (fun x v => Host.reduce IntOp.andi x v reducesTo_S1x100000x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S1x100000x128 : Shape := ⟨3, ![1, 100000, 128]⟩
abbrev S128x128 : Shape := ⟨2, ![128, 128]⟩
abbrev S128 : Shape := ⟨1, ![128]⟩
abbrev S100000x128 : Shape := ⟨2, ![100000, 128]⟩
abbrev S1x128 : Shape := ⟨2, ![1, 128]⟩
abbrev S20000x128 : Shape := ⟨2, ![20000, 128]⟩

abbrev nBuf : Space → Nat
  | .hbm => 8
  | .vmem => 9
  | .smem => 0
  | _ => 0

abbrev bufTy : (tb : Table) → Fin (tcTables nBuf tb) → BufTy
  | .hbm, ⟨0, _⟩ => ⟨S1x100000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S100000x128, .f32⟩
  | .hbm, ⟨5, _⟩ => ⟨S1x128, .f32⟩
  | .hbm, ⟨6, _⟩ => ⟨S100000x128, .f32⟩
  | .hbm, ⟨7, _⟩ => ⟨S1x100000x128, .f32⟩
  | .local _ .vmem, ⟨0, _⟩ => ⟨S20000x128, .f32⟩
  | .local _ .vmem, ⟨1, _⟩ => ⟨S20000x128, .f32⟩
  | .local _ .vmem, ⟨2, _⟩ => ⟨S128x128, .f32⟩
  | .local _ .vmem, ⟨3, _⟩ => ⟨S128x128, .f32⟩
  | .local _ .vmem, ⟨4, _⟩ => ⟨S1x128, .f32⟩
  | .local _ .vmem, ⟨5, _⟩ => ⟨S20000x128, .f32⟩
  | .local _ .vmem, ⟨6, _⟩ => ⟨S20000x128, .f32⟩
  | .local _ .vmem, ⟨7, _⟩ => ⟨S128x128, .f32⟩
  | .local _ .vmem, ⟨8, _⟩ => ⟨S1x128, .f32⟩
  | _, _ => ⟨S1x100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S20000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1x100000x128_S100000x128 : S1x100000x128.ShapeCasts S100000x128
  shapeCasts_S128_S1x128 : S128.ShapeCasts S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S20000x128_S20000x128_0_0 : ∀ a, (![0, 0] : Fin 2 → Nat) a + S20000x128.size a ≤ S20000x128.size a
  h_S20000x128 : 0 < S20000x128.numel
  shapeCasts_S20000x128_S20000x128 : S20000x128.ShapeCasts S20000x128
  broadcasts_S1x128_S20000x128 : S1x128.Broadcasts S20000x128
  shapeCasts_S100000x128_S1x100000x128 : S100000x128.ShapeCasts S1x100000x128
  dot_S128x128_S128x128_S128x128_0_0_1_1_n_n_wf : DotDims.WF S128x128 S128x128 S128x128 [0] [0] [1] [1] [] []
  dot_S1x128_S128x128_S1x128_1_0_0_1_n_n_wf : DotDims.WF S1x128 S128x128 S1x128 [1] [0] [0] [1] [] []
  dot_S20000x128_S128x128_S20000x128_1_0_0_1_n_n_wf : DotDims.WF S20000x128 S128x128 S20000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x128.size a ≤ S100000x128.size a
  hwx0_0 : ∀ i : grid0.Coords, EltTy.bits .f32 = 32 ∨ (Rect.block (s := S100000x128) S20000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S20000x128.size a ≤ S100000x128.size a
  hwx0_4 : ∀ i : grid0.Coords, EltTy.bits .f32 = 32 ∨ (Rect.block (s := S100000x128) S20000x128.size (cc0_transform_4 i) (hinb0_4 i)).WholeWords (EltTy.packing .f32)

variable [Facts₀]

def dot_S128x128_S128x128_S128x128_0_0_1_1_n_n : DotDims S128x128 S128x128 S128x128 where
  lhsContracting := [0]
  rhsContracting := [0]
  lhsNonContracting := [1]
  rhsNonContracting := [1]
  lhsBatch := []
  rhsBatch := []
  wf := dot_S128x128_S128x128_S128x128_0_0_1_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf

abbrev win0_0 : Pipeline.Window sig grid0 :=
  Pipeline.Window.ofSpec (Memref.whole main_v0) S20000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S20000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x100000x128 : Shape := ⟨3, ![1, 100000, 128]⟩
abbrev S128x128 : Shape := ⟨2, ![128, 128]⟩
abbrev S128 : Shape := ⟨1, ![128]⟩
abbrev S1x1x128 : Shape := ⟨3, ![1, 1, 128]⟩

abbrev nBuf : Space → Nat
  | .hbm => 9
  | .vmem => 0
  | .smem => 0
  | _ => 0

abbrev bufTy : (tb : Table) → Fin (tcTables nBuf tb) → BufTy
  | .hbm, ⟨0, _⟩ => ⟨S1x100000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S1x100000x128, .f32⟩
  | .hbm, ⟨5, _⟩ => ⟨S1x1x128, .f32⟩
  | .hbm, ⟨6, _⟩ => ⟨S1x100000x128, .f32⟩
  | .hbm, ⟨7, _⟩ => ⟨S1x100000x128, .f32⟩
  | .hbm, ⟨8, _⟩ => ⟨S1x100000x128, .f32⟩
  | _, _ => ⟨S1x100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S1x100000x128_0_1_2 : S1x1x128.BroadcastsInDim S1x100000x128 (![0, 1, 2] : Fin 3 → Fin S1x100000x128.rank)
  dot_S1x100000x128_S128x128_S1x100000x128_2_1_01_0_n_n_wf : DotDims.WF S1x100000x128 S128x128 S1x100000x128 [2] [1] [0, 1] [0] [] []
  dot_S1x100000x128_S128x128_S1x100000x128_2_0_01_1_n_n_wf : DotDims.WF S1x100000x128 S128x128 S1x100000x128 [2] [0] [0, 1] [1] [] []

variable [Facts₀]

def dot_S1x100000x128_S128x128_S1x100000x128_2_1_01_0_n_n : DotDims S1x100000x128 S128x128 S1x100000x128 where
  lhsContracting := [2]
  rhsContracting := [1]
  lhsNonContracting := [0, 1]
  rhsNonContracting := [0]
  lhsBatch := []
  rhsBatch := []
  wf := dot_S1x100000x128_S128x128_S1x100000x128_2_1_01_0_n_n_wf
def dot_S1x100000x128_S128x128_S1x100000x128_2_0_01_1_n_n : DotDims S1x100000x128 S128x128 S1x100000x128 where
  lhsContracting := [2]
  rhsContracting := [0]
  lhsNonContracting := [0, 1]
  rhsNonContracting := [1]
  lhsBatch := []
  rhsBatch := []
  wf := dot_S1x100000x128_S128x128_S1x100000x128_2_0_01_1_n_n_wf

class Facts : Prop extends Facts₀ where

variable [Facts]
-- ==== Proof.Pieces.lean ====
/-
  What one run of the kernel body leaves behind, as values.

  The body has two control cases. At the grid's first point it first fills its two carried buffers — the fused
  matrix `Wᵀ · graph` (weights against graph, contracting the hidden axis of both) and the bias row against the
  graph — and then, as at every point, multiplies the point's block of feature rows by the fused matrix and adds
  the bias row to every row of the product. At the later points the two carried buffers are only read.

  Each lemma below reads the stores a case makes back as the value of the store's operand: every store covers its
  whole buffer, every load reads a whole buffer, and a load of a carried buffer after the store into it in the
  same run reads what was stored.
-/
import proofs.«115374_g34368328302832_cont_8to1_b_213_24_alg».proof.Proof.Gen.KernelIdeal.Frame
import Idealize.ShloMosaic.Lib.Pipeline.Value
import Idealize.ShloMosaic.Lib.Tactic

set_option maxRecDepth 16384

noncomputable section

namespace Cert.KernelIdeal.Body

open Idealize.ShloMosaic Idealize.ShloMosaic.TcCoe Idealize.SL.Sem Idealize.ShloMosaic.Tactic
open Cert.KernelIdeal Cert.KernelIdeal.Gen

variable {F : FTy → Type} [FloatOps F]

/-- The zero offsets of a whole-buffer access. -/
theorem hz : (![0, 0] : Fin 2 → Nat) = fun _ => 0 := funext fun a => by fin_cases a <;> rfl

/-- First point: the first carried buffer ends holding the weights contracted with the graph. -/
theorem fusedA (c : Dev nD) (i : grid0.Coords) (arg1 : Memref sig .tc .vmem S20000x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S20000x128 .f32) (harg5 : arg5.IsWhole) (arg6 : Memref sig .tc .vmem S128x128 .f32) (harg6 : arg6.IsWhole) (arg7 : Memref sig .tc .vmem S1x128 .f32) (harg7 : arg7.IsWhole) (hc0 : cond0_0 i)
    (x0 : Vec F S20000x128 .f32) (x1 : Vec F S128x128 .f32) (x2 : Vec F S128x128 .f32) (x3 : Vec F S1x128 .f32) :
    sout0_A_0 c i arg1 harg1 arg2 harg2 arg3 harg3 arg4 harg4 arg5 harg5 arg6 harg6 arg7 harg7 hc0 x0 x1 x2 x3 = k0_pay1 x2 x1 := by
  unfold sout0_A_0
  rw [View.read_writes_eq_canon _ _ _ (scover0_A_0 c i arg1 harg1 arg2 harg2 arg3 harg3 arg4 harg4 arg5 harg5 arg6 harg6 arg7 harg7 hc0 x0 x1 x2 x3)]
  unfold kernelRun0_A
  dsimp only
  sl_unfold_words
  rw [View.canon_unit_zero hz]
  simp only [View.readAt_eq_ld, harg2.read_unread, harg3.read_unread, View.ld_unit_zero (S := S128x128) hz]

/-- First point: the second carried buffer ends holding the bias row contracted with the graph. -/
theorem biasA (c : Dev nD) (i : grid0.Coords) (arg1 : Memref sig .tc .vmem S20000x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S20000x128 .f32) (harg5 : arg5.IsWhole) (arg6 : Memref sig .tc .vmem S128x128 .f32) (harg6 : arg6.IsWhole) (arg7 : Memref sig .tc .vmem S1x128 .f32) (harg7 : arg7.IsWhole) (hc0 : cond0_0 i)
    (x0 : Vec F S20000x128 .f32) (x1 : Vec F S128x128 .f32) (x2 : Vec F S128x128 .f32) (x3 : Vec F S1x128 .f32) :
    sout0_A_1 c i arg1 harg1 arg2 harg2 arg3 harg3 arg4 harg4 arg5 harg5 arg6 harg6 arg7 harg7 hc0 x0 x1 x2 x3 = k0_pay2 x3 x1 := by
  unfold sout0_A_1
  rw [View.read_writes_eq_canon _ _ _ (scover0_A_1 c i arg1 harg1 arg2 harg2 arg3 harg3 arg4 harg4 arg5 harg5 arg6 harg6 arg7 harg7 hc0 x0 x1 x2 x3)]
  unfold kernelRun0_A
  dsimp only
  sl_unfold_words
  rw [View.canon_unit_zero hz]
  simp only [View.readAt_eq_ld, harg2.read_unread, harg4.read_unread, View.ld_unit_zero (S := S128x128) hz,
    View.ld_unit_zero (S := S1x128) hz]

/-- First point: the output block is the feature block against the fused matrix just stored, plus the bias row
    just stored. -/
theorem outA (c : Dev nD) (i : grid0.Coords) (arg1 : Memref sig .tc .vmem S20000x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S20000x128 .f32) (harg5 : arg5.IsWhole) (arg6 : Memref sig .tc .vmem S128x128 .f32) (harg6 : arg6.IsWhole) (arg7 : Memref sig .tc .vmem S1x128 .f32) (harg7 : arg7.IsWhole) (hc0 : cond0_0 i)
    (x0 : Vec F S20000x128 .f32) (x1 : Vec F S128x128 .f32) (x2 : Vec F S128x128 .f32) (x3 : Vec F S1x128 .f32) :
    out0_A_4 c i arg1 harg1 arg2 harg2 arg3 harg3 arg4 harg4 arg5 harg5 arg6 harg6 arg7 harg7 hc0 x0 x1 x2 x3 = k0_pay3 x0 (k0_pay1 x2 x1) (k0_pay2 x3 x1) := by
  unfold out0_A_4
  rw [View.read_writes_eq_canon _ _ _ (cover0_A_4 c i arg1 harg1 arg2 harg2 arg3 harg3 arg4 harg4 arg5 harg5 arg6 harg6 arg7 harg7 hc0 x0 x1 x2 x3)]
  unfold kernelRun0_A
  dsimp only
  sl_unfold_words
  rw [View.canon_unit_zero hz]
  simp only [View.readAt_eq_ld, harg1.read_unread, harg2.read_unread, harg3.read_unread, harg4.read_unread,
    View.ld_unit_zero (S := S20000x128) hz, View.ld_unit_zero (S := S128x128) hz, View.ld_unit_zero (S := S1x128) hz,
    View.readCov_unit_zero (S := S128x128) _ hz, View.readCov_unit_zero (S := S1x128) _ hz]

/-- Later points: the output block is the feature block against the carried fused matrix, plus the carried bias row. -/
theorem outB (c : Dev nD) (i : grid0.Coords) (arg1 : Memref sig .tc .vmem S20000x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S20000x128 .f32) (harg5 : arg5.IsWhole) (arg6 : Memref sig .tc .vmem S128x128 .f32) (harg6 : arg6.IsWhole) (arg7 : Memref sig .tc .vmem S1x128 .f32) (harg7 : arg7.IsWhole) (hc0 : ¬cond0_0 i)
    (x0 : Vec F S20000x128 .f32) (x1 : Vec F S128x128 .f32) (x2 : Vec F S128x128 .f32) (x3 : Vec F S1x128 .f32) (xs0 : Vec F S128x128 .f32) (xs1 : Vec F S1x128 .f32) :
    out0_B_4 c i arg1 harg1 arg2 harg2 arg3 harg3 arg4 harg4 arg5 harg5 arg6 harg6 arg7 harg7 hc0 x0 x1 x2 x3 xs0 xs1 = k0_pay3 x0 xs0 xs1 := by
  unfold out0_B_4
  rw [View.read_writes_eq_canon _ _ _ (cover0_B_4 c i arg1 harg1 arg2 harg2 arg3 harg3 arg4 harg4 arg5 harg5 arg6 harg6 arg7 harg7 hc0 x0 x1 x2 x3 xs0 xs1)]
  unfold kernelRun0_B
  dsimp only
  rw [View.canon_unit_zero hz]
  simp only [View.readAt_eq_ld, harg1.read_unread, harg6.read_unread, harg7.read_unread,
    View.ld_unit_zero (S := S20000x128) hz, View.ld_unit_zero (S := S128x128) hz, View.ld_unit_zero (S := S1x128) hz]

end Cert.KernelIdeal.Body

end
-- ==== Proof.Carried.lean ====
/-
  The carried buffers and the output block, point by point.

  The graph, the weights and the bias row each have one block, the whole array, at every grid point. So what the
  first point stores in the two carried buffers is a function of the whole arrays — the fused matrix and the bias
  row against the graph —, the later points leave both untouched, and by induction on the point both hold those
  two values after every point. The output block of point `t` is therefore the block `t` of feature rows
  against the fused matrix plus the contracted bias row, at the first point and at the later ones alike.
-/
import proofs.«115374_g34368328302832_cont_8to1_b_213_24_alg».proof.Proof.Pieces

set_option maxRecDepth 16384

noncomputable section

namespace Cert.KernelIdeal.Body

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- The arrays the region finds, at their literal types: the graph, the weights, the bias as a row. -/
abbrev graphArr (c : Dev nD) : Vec F S128x128 .f32 := V m c main_arg1
abbrev weightArr (c : Dev nD) : Vec F S128x128 .f32 := V m c main_arg2
abbrev biasRow (c : Dev nD) : Vec F S1x128 .f32 := V m c main_v1

/-- The index maps of the three small windows are constantly zero. -/
theorem small_index : ∀ t : Fin cfg0.N,
    (win0_1.index t 0 = 0 ∧ win0_1.index t 1 = 0) ∧ (win0_2.index t 0 = 0 ∧ win0_2.index t 1 = 0)
      ∧ (win0_3.index t 0 = 0 ∧ win0_3.index t 1 = 0) :=
  (by decide +kernel : ∀ t : Fin grid0.N, _)

/-- The graph's block at any point is the graph. -/
theorem graph_blk (c : Dev nD) (t : Fin cfg0.N) : (iblk m c 1 t : Vec F S128x128 .f32) = graphArr m c := by
  funext j
  unfold iblk
  rw [View.read_apply]
  show V m c main_arg1 _ = V m c main_arg1 j
  congr 1
  funext a
  apply Fin.ext
  match a with
  | ⟨0, _⟩ => show win0_1.index t 0 * 128 + 1 * (j 0).val = (j 0).val; rw [(small_index t).1.1]; omega
  | ⟨1, _⟩ => show win0_1.index t 1 * 128 + 1 * (j 1).val = (j 1).val; rw [(small_index t).1.2]; omega

/-- The weights' block at any point is the weights. -/
theorem weight_blk (c : Dev nD) (t : Fin cfg0.N) : (iblk m c 2 t : Vec F S128x128 .f32) = weightArr m c := by
  funext j
  unfold iblk
  rw [View.read_apply]
  show V m c main_arg2 _ = V m c main_arg2 j
  congr 1
  funext a
  apply Fin.ext
  match a with
  | ⟨0, _⟩ => show win0_2.index t 0 * 128 + 1 * (j 0).val = (j 0).val; rw [(small_index t).2.1.1]; omega
  | ⟨1, _⟩ => show win0_2.index t 1 * 128 + 1 * (j 1).val = (j 1).val; rw [(small_index t).2.1.2]; omega

/-- The bias row's block at any point is the bias row. -/
theorem bias_blk (c : Dev nD) (t : Fin cfg0.N) : (iblk m c 3 t : Vec F S1x128 .f32) = biasRow m c := by
  funext j
  unfold iblk
  rw [View.read_apply]
  show V m c main_v1 _ = V m c main_v1 j
  congr 1
  funext a
  apply Fin.ext
  match a with
  | ⟨0, _⟩ => show win0_3.index t 0 * 1 + 1 * (j 0).val = (j 0).val; rw [(small_index t).2.2.1]; omega
  | ⟨1, _⟩ => show win0_3.index t 1 * 128 + 1 * (j 1).val = (j 1).val; rw [(small_index t).2.2.2]; omega

/-- The fused matrix: the weights against the graph, as the body's first store computes it. -/
def fusedMat (c : Dev nD) : Vec F S128x128 .f32 := k0_pay1 (weightArr m c) (graphArr m c)
/-- The bias row against the graph, as the body's second store computes it. -/
def biasGraph (c : Dev nD) : Vec F S1x128 .f32 := k0_pay2 (biasRow m c) (graphArr m c)

/-- After every point the two carried buffers hold the fused matrix and the contracted bias row. -/
theorem carried (c : Dev nD) : ∀ (n : ℕ) (hn : n < cfg0.N),
    (outsAt0 m c n hn).2.1 = fusedMat m c ∧ (outsAt0 m c n hn).2.2 = biasGraph m c
  | 0, hn => by
    have h0 : (⟨0, hn⟩ : Fin cfg0.N).val % 5 = 0 := rfl
    rw [outsAt0_A m c ⟨0, hn⟩ h0]
    dsimp only
    refine ⟨?_, ?_⟩
    · refine (fusedA c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr h0) (iblk m c 0 ⟨0, hn⟩) (iblk m c 1 ⟨0, hn⟩) (iblk m c 2 ⟨0, hn⟩) (iblk m c 3 ⟨0, hn⟩)).trans ?_
      exact congrArg₂ (k0_pay1 (F := F)) (weight_blk m c ⟨0, hn⟩) (graph_blk m c ⟨0, hn⟩)
    · refine (biasA c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr h0) (iblk m c 0 ⟨0, hn⟩) (iblk m c 1 ⟨0, hn⟩) (iblk m c 2 ⟨0, hn⟩) (iblk m c 3 ⟨0, hn⟩)).trans ?_
      exact congrArg₂ (k0_pay2 (F := F)) (bias_blk m c ⟨0, hn⟩) (graph_blk m c ⟨0, hn⟩)
  | n + 1, hn => by
    have hN : cfg0.N = 5 := N_0
    have hB : ¬(⟨n + 1, hn⟩ : Fin cfg0.N).val % 5 = 0 := by dsimp only; omega
    rw [outsAt0_B m c ⟨n + 1, hn⟩ hB]
    dsimp only
    unfold sout0_B_0 sout0_B_1
    exact carried c n (Nat.lt_of_succ_lt hn)

/-- The output block of point `t`: the block of feature rows against the fused matrix, plus the contracted bias row. -/
theorem out_at (c : Dev nD) (t : Fin cfg0.N) :
    (outsAt0 m c t.val t.isLt).1 = k0_pay3 (iblk m c 0 t) (fusedMat m c) (biasGraph m c) := by
  have hN : cfg0.N = 5 := N_0
  by_cases h0 : t.val % 5 = 0
  · rw [outsAt0_A m c t h0]
    dsimp only
    refine (outA c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t)).trans ?_
    exact congrArg₂ (k0_pay3 (F := F) (iblk m c 0 t))
      (congrArg₂ (k0_pay1 (F := F)) (weight_blk m c t) (graph_blk m c t))
      (congrArg₂ (k0_pay2 (F := F)) (bias_blk m c t) (graph_blk m c t))
  · rw [outsAt0_B m c t h0]
    dsimp only
    have hpos : t.val - 1 < cfg0.N := Nat.lt_of_le_of_lt (Nat.sub_le _ _) t.isLt
    refine (outB c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (iblk m c 3 t)
      (outsAt0 m c (t.val - 1) hpos).2.1 (outsAt0 m c (t.val - 1) hpos).2.2).trans ?_
    exact congrArg₂ (k0_pay3 (F := F) (iblk m c 0 t)) (carried m c (t.val - 1) hpos).1 (carried m c (t.val - 1) hpos).2

end Cert.KernelIdeal.Body

end
-- ==== Proof.Payloads.lean ====
/-
  The body's three stored values, read at an index over the extended reals.

  Each matrix product accumulates into a zero block, so at an entry it is the plain sum of products over the
  contracted axis: the fused matrix at `(i, g)` sums `W[o, i] · graph[o, g]` over the hidden index `o` (both
  operands contracted on their first axis); the contracted bias at `(0, g)` sums `b[0, o] · graph[o, g]`; and the
  output block at `(r, g)` sums `x[r, k] · M[k, g]` over `k` and adds the bias row's entry `g`, the row being
  repeated down the block's 20000 rows.
-/
import proofs.«115374_g34368328302832_cont_8to1_b_213_24_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Idealize.ShloMosaic Idealize.ShloMosaic.TcCoe Idealize.SL.Sem Idealize.ShloMosaic.ValueIdx
open Cert.KernelIdeal Cert.KernelIdeal.Gen

/-! ## Which operand entry each product reads, axis by axis -/

theorem lhsF_0 (i : S128x128.Idx) (q : dot_S128x128_S128x128_S128x128_0_0_1_1_n_n.contr.Idx) :
    (dot_S128x128_S128x128_S128x128_0_0_1_1_n_n.lhsIdx i q 0).val = (q ⟨0, by decide⟩).val :=
  dot_S128x128_S128x128_S128x128_0_0_1_1_n_n.lhsIdx_val_of_single rfl i q
theorem lhsF_1 (i : S128x128.Idx) (q : dot_S128x128_S128x128_S128x128_0_0_1_1_n_n.contr.Idx) :
    (dot_S128x128_S128x128_S128x128_0_0_1_1_n_n.lhsIdx i q 1).val = (i 0).val := by
  unfold DotDims.lhsIdx
  rw [dif_neg (show ¬(1 : Fin S128x128.rank) ∈ dot_S128x128_S128x128_S128x128_0_0_1_1_n_n.lhsBatch by decide), dif_pos (show (1 : Fin S128x128.rank) ∈ dot_S128x128_S128x128_S128x128_0_0_1_1_n_n.lhsNonContracting by decide)]
  rfl
theorem rhsF_0 (i : S128x128.Idx) (q : dot_S128x128_S128x128_S128x128_0_0_1_1_n_n.contr.Idx) :
    (dot_S128x128_S128x128_S128x128_0_0_1_1_n_n.rhsIdx i q 0).val = (q ⟨0, by decide⟩).val :=
  dot_S128x128_S128x128_S128x128_0_0_1_1_n_n.rhsIdx_val_of_single rfl i q
theorem rhsF_1 (i : S128x128.Idx) (q : dot_S128x128_S128x128_S128x128_0_0_1_1_n_n.contr.Idx) :
    (dot_S128x128_S128x128_S128x128_0_0_1_1_n_n.rhsIdx i q 1).val = (i 1).val := by
  unfold DotDims.rhsIdx
  rw [dif_neg (show ¬(1 : Fin S128x128.rank) ∈ dot_S128x128_S128x128_S128x128_0_0_1_1_n_n.rhsBatch by decide), dif_pos (show (1 : Fin S128x128.rank) ∈ dot_S128x128_S128x128_S128x128_0_0_1_1_n_n.rhsNonContracting by decide)]
  rfl
theorem lhsB_0 (i : S1x128.Idx) (q : dot_S1x128_S128x128_S1x128_1_0_0_1_n_n.contr.Idx) :
    (dot_S1x128_S128x128_S1x128_1_0_0_1_n_n.lhsIdx i q 0).val = (i 0).val := by
  unfold DotDims.lhsIdx
  rw [dif_neg (show ¬(0 : Fin S1x128.rank) ∈ dot_S1x128_S128x128_S1x128_1_0_0_1_n_n.lhsBatch by decide), dif_pos (show (0 : Fin S1x128.rank) ∈ dot_S1x128_S128x128_S1x128_1_0_0_1_n_n.lhsNonContracting by decide)]
  rfl
theorem lhsB_1 (i : S1x128.Idx) (q : dot_S1x128_S128x128_S1x128_1_0_0_1_n_n.contr.Idx) :
    (dot_S1x128_S128x128_S1x128_1_0_0_1_n_n.lhsIdx i q 1).val = (q ⟨0, by decide⟩).val :=
  dot_S1x128_S128x128_S1x128_1_0_0_1_n_n.lhsIdx_val_of_single rfl i q
theorem rhsB_0 (i : S1x128.Idx) (q : dot_S1x128_S128x128_S1x128_1_0_0_1_n_n.contr.Idx) :
    (dot_S1x128_S128x128_S1x128_1_0_0_1_n_n.rhsIdx i q 0).val = (q ⟨0, by decide⟩).val :=
  dot_S1x128_S128x128_S1x128_1_0_0_1_n_n.rhsIdx_val_of_single rfl i q
theorem rhsB_1 (i : S1x128.Idx) (q : dot_S1x128_S128x128_S1x128_1_0_0_1_n_n.contr.Idx) :
    (dot_S1x128_S128x128_S1x128_1_0_0_1_n_n.rhsIdx i q 1).val = (i 1).val := by
  unfold DotDims.rhsIdx
  rw [dif_neg (show ¬(1 : Fin S128x128.rank) ∈ dot_S1x128_S128x128_S1x128_1_0_0_1_n_n.rhsBatch by decide), dif_pos (show (1 : Fin S128x128.rank) ∈ dot_S1x128_S128x128_S1x128_1_0_0_1_n_n.rhsNonContracting by decide)]
  rfl
theorem lhsO_0 (i : S20000x128.Idx) (q : dot_S20000x128_S128x128_S20000x128_1_0_0_1_n_n.contr.Idx) :
    (dot_S20000x128_S128x128_S20000x128_1_0_0_1_n_n.lhsIdx i q 0).val = (i 0).val := by
  unfold DotDims.lhsIdx
  rw [dif_neg (show ¬(0 : Fin S20000x128.rank) ∈ dot_S20000x128_S128x128_S20000x128_1_0_0_1_n_n.lhsBatch by decide), dif_pos (show (0 : Fin S20000x128.rank) ∈ dot_S20000x128_S128x128_S20000x128_1_0_0_1_n_n.lhsNonContracting by decide)]
  rfl
theorem lhsO_1 (i : S20000x128.Idx) (q : dot_S20000x128_S128x128_S20000x128_1_0_0_1_n_n.contr.Idx) :
    (dot_S20000x128_S128x128_S20000x128_1_0_0_1_n_n.lhsIdx i q 1).val = (q ⟨0, by decide⟩).val :=
  dot_S20000x128_S128x128_S20000x128_1_0_0_1_n_n.lhsIdx_val_of_single rfl i q
theorem rhsO_0 (i : S20000x128.Idx) (q : dot_S20000x128_S128x128_S20000x128_1_0_0_1_n_n.contr.Idx) :
    (dot_S20000x128_S128x128_S20000x128_1_0_0_1_n_n.rhsIdx i q 0).val = (q ⟨0, by decide⟩).val :=
  dot_S20000x128_S128x128_S20000x128_1_0_0_1_n_n.rhsIdx_val_of_single rfl i q
theorem rhsO_1 (i : S20000x128.Idx) (q : dot_S20000x128_S128x128_S20000x128_1_0_0_1_n_n.contr.Idx) :
    (dot_S20000x128_S128x128_S20000x128_1_0_0_1_n_n.rhsIdx i q 1).val = (i 1).val := by
  unfold DotDims.rhsIdx
  rw [dif_neg (show ¬(1 : Fin S128x128.rank) ∈ dot_S20000x128_S128x128_S20000x128_1_0_0_1_n_n.rhsBatch by decide), dif_pos (show (1 : Fin S128x128.rank) ∈ dot_S20000x128_S128x128_S20000x128_1_0_0_1_n_n.rhsNonContracting by decide)]
  rfl

/-! ## The three values at an index -/

/-- The fused matrix at `(i, g)`: the sum over the hidden index of weight times graph entry. -/
theorem fused_apply (W graph : Vec Ideal S128x128 .f32) (i g : Fin 128) :
    k0_pay1 (F := Ideal) W graph (ix2 i g) = ∑ o : Fin 128, W (ix2 o i) * graph (ix2 o g) := by
  unfold k0_pay1
  rw [shapeCast_self]
  simp only [matmul]
  rw [Ideal.matmul_constant_zero_apply, ← Equiv.sum_comp (contrEquiv1 dot_S128x128_S128x128_S128x128_0_0_1_1_n_n 128 rfl rfl).symm]
  refine Finset.sum_congr rfl fun k _ => ?_
  have hk := contrEquiv1_symm_val dot_S128x128_S128x128_S128x128_0_0_1_1_n_n 128 rfl rfl k
  have el : dot_S128x128_S128x128_S128x128_0_0_1_1_n_n.lhsIdx (ix2 i g) ((contrEquiv1 dot_S128x128_S128x128_S128x128_0_0_1_1_n_n 128 rfl rfl).symm k) = ix2 k i := funext fun a => Fin.ext (by
    match a with
    | ⟨0, _⟩ => exact (lhsF_0 _ _).trans hk
    | ⟨1, _⟩ => exact lhsF_1 _ _)
  have er : dot_S128x128_S128x128_S128x128_0_0_1_1_n_n.rhsIdx (ix2 i g) ((contrEquiv1 dot_S128x128_S128x128_S128x128_0_0_1_1_n_n 128 rfl rfl).symm k) = ix2 k g := funext fun a => Fin.ext (by
    match a with
    | ⟨0, _⟩ => exact (rhsF_0 _ _).trans hk
    | ⟨1, _⟩ => exact rhsF_1 _ _)
  rw [el, er]

/-- The contracted bias at `(0, g)`: the sum over the hidden index of bias times graph entry. -/
theorem biasg_apply (b : Vec Ideal S1x128 .f32) (graph : Vec Ideal S128x128 .f32) (z : Fin 1) (g : Fin 128) :
    k0_pay2 (F := Ideal) b graph (ix2 z g) = ∑ o : Fin 128, b (ix2 z o) * graph (ix2 o g) := by
  unfold k0_pay2
  rw [shapeCast_self, shapeCast_self]
  simp only [matmul]
  rw [Ideal.matmul_constant_zero_apply, ← Equiv.sum_comp (contrEquiv1 dot_S1x128_S128x128_S1x128_1_0_0_1_n_n 128 rfl rfl).symm]
  refine Finset.sum_congr rfl fun k _ => ?_
  have hk := contrEquiv1_symm_val dot_S1x128_S128x128_S1x128_1_0_0_1_n_n 128 rfl rfl k
  have el : dot_S1x128_S128x128_S1x128_1_0_0_1_n_n.lhsIdx (ix2 z g) ((contrEquiv1 dot_S1x128_S128x128_S1x128_1_0_0_1_n_n 128 rfl rfl).symm k) = ix2 z k := funext fun a => Fin.ext (by
    match a with
    | ⟨0, _⟩ => exact lhsB_0 _ _
    | ⟨1, _⟩ => exact (lhsB_1 _ _).trans hk)
  have er : dot_S1x128_S128x128_S1x128_1_0_0_1_n_n.rhsIdx (ix2 z g) ((contrEquiv1 dot_S1x128_S128x128_S1x128_1_0_0_1_n_n 128 rfl rfl).symm k) = ix2 k g := funext fun a => Fin.ext (by
    match a with
    | ⟨0, _⟩ => exact (rhsB_0 _ _).trans hk
    | ⟨1, _⟩ => exact rhsB_1 _ _)
  rw [el, er]

/-- The output block at `(r, g)`: row `r` of the feature block against column `g` of the carried matrix, plus
    entry `g` of the carried row. -/
theorem out_apply (x : Vec Ideal S20000x128 .f32) (M : Vec Ideal S128x128 .f32) (bg : Vec Ideal S1x128 .f32)
    (r : Fin 20000) (g : Fin 128) :
    k0_pay3 (F := Ideal) x M bg (ix2 r g) = (∑ k : Fin 128, x (ix2 r k) * M (ix2 k g)) + bg (ix2 0 g) := by
  unfold k0_pay3
  rw [addf_apply, shapeCast_self]
  simp only [matmul]
  rw [Ideal.matmul_constant_zero_apply, ← Equiv.sum_comp (contrEquiv1 dot_S20000x128_S128x128_S20000x128_1_0_0_1_n_n 128 rfl rfl).symm,
    broadcastTo_apply bg broadcasts_S1x128_S20000x128 (ix2 r g) (ix2 0 g) (fun a => by
      match a with
      | ⟨0, _⟩ => show 0 = if (1 : Nat) = 1 then 0 else _; rw [if_pos rfl]
      | ⟨1, _⟩ => show g.val = if (128 : Nat) = 1 then 0 else g.val; rw [if_neg (by decide)])]
  refine congrArg (· + bg (ix2 0 g)) (Finset.sum_congr rfl fun k _ => ?_)
  have hk := contrEquiv1_symm_val dot_S20000x128_S128x128_S20000x128_1_0_0_1_n_n 128 rfl rfl k
  have el : dot_S20000x128_S128x128_S20000x128_1_0_0_1_n_n.lhsIdx (ix2 r g) ((contrEquiv1 dot_S20000x128_S128x128_S20000x128_1_0_0_1_n_n 128 rfl rfl).symm k) = ix2 r k := funext fun a => Fin.ext (by
    match a with
    | ⟨0, _⟩ => exact lhsO_0 _ _
    | ⟨1, _⟩ => exact (lhsO_1 _ _).trans hk)
  have er : dot_S20000x128_S128x128_S20000x128_1_0_0_1_n_n.rhsIdx (ix2 r g) ((contrEquiv1 dot_S20000x128_S128x128_S20000x128_1_0_0_1_n_n 128 rfl rfl).symm k) = ix2 k g := funext fun a => Fin.ext (by
    match a with
    | ⟨0, _⟩ => exact (rhsO_0 _ _).trans hk
    | ⟨1, _⟩ => exact rhsO_1 _ _)
  rw [el, er]

end Cert.KernelIdeal.Body

end
-- ==== Proof.Region.lean ====
/-
  The region's output array as one function of the arrays the region finds.

  The feature array is cut into five blocks of 20000 rows; point `t` reads block `t` and writes block `t` of the
  output, so output row `R = 20000·t + r` is row `r` of block `t` against the fused matrix plus the contracted
  bias: entry `(R, g)` is `∑ₖ feat[R, k] · M[k, g] + bg[0, g]`. The five blocks tile the output, so after the
  last write-back the whole array is that function.
-/
import proofs.«115374_g34368328302832_cont_8to1_b_213_24_alg».proof.Proof.Carried
import proofs.«115374_g34368328302832_cont_8to1_b_213_24_alg».proof.Proof.Payloads

set_option maxRecDepth 16384

noncomputable section

namespace Cert.KernelIdeal.Body

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The feature rows as the region finds them: 100000 rows of 128. -/
abbrev featArr (c : Dev nD) : Vec Ideal S100000x128 .f32 := V m c main_v0

/-- The output array: each row of features against the fused matrix, plus the contracted bias. -/
def regionOut (c : Dev nD) : Vec Ideal S100000x128 .f32 := fun i =>
  (∑ k : Fin 128, featArr m c (ix2 (i 0) k) * fusedMat m c (ix2 k (i 1))) + biasGraph m c (ix2 0 (i 1))

/-- The feature window and the output window both sit at block row `t`, block column 0. -/
theorem row_index : ∀ t : Fin cfg0.N,
    (win0_0.index t 0 = t.val ∧ win0_0.index t 1 = 0) ∧ (win0_4.index t 0 = t.val ∧ win0_4.index t 1 = 0) :=
  (by decide +kernel : ∀ t : Fin grid0.N, _)

/-- Row `r` of the feature block at point `t` is row `20000·t + r` of the feature array. -/
theorem feat_blk (c : Dev nD) (t : Fin cfg0.N) (r : Fin 20000) (k : Fin 128) (R : Fin 100000)
    (hR : R.val = t.val * 20000 + r.val) :
    (iblk m c 0 t : Vec Ideal S20000x128 .f32) (ix2 r k) = featArr m c (ix2 R k) := by
  unfold iblk
  rw [View.read_apply]
  show V m c main_v0 _ = V m c main_v0 _
  congr 1
  funext a
  apply Fin.ext
  match a with
  | ⟨0, _⟩ => show win0_0.index t 0 * 20000 + 1 * r.val = R.val; rw [(row_index t).1.1]; omega
  | ⟨1, _⟩ => show win0_0.index t 1 * 128 + 1 * k.val = k.val; rw [(row_index t).1.2]; omega

/-- The output entry of a block, with the block's index split into its coordinates. -/
theorem out_apply_idx (x : Vec Ideal S20000x128 .f32) (M : Vec Ideal S128x128 .f32) (bg : Vec Ideal S1x128 .f32)
    (j : S20000x128.Idx) :
    k0_pay3 (F := Ideal) x M bg j = (∑ k : Fin 128, x (ix2 (j 0) k) * M (ix2 k (j 1))) + bg (ix2 0 (j 1)) := by
  obtain ⟨r, g, rfl⟩ : ∃ (r : Fin 20000) (g : Fin 128), j = ix2 r g := ⟨j 0, j 1, eq_ix2 j⟩
  exact out_apply x M bg r g

/-- What point `t` writes back is block `t` of the output function. -/
theorem flushed_eq (c : Dev nD) (t : Fin cfg0.N) :
    (dats m 0 c).flushed 4 t = ((cfg0.win 4).blk t).view.read (Elt Ideal) (regionOut m c) := by
  show (cfg0.win 4).cut (grid0.coords t) ((dats m 0 c).after 4 t) = _
  rw [after0_4, out_at]
  funext j
  rw [View.read_apply]
  refine (out_apply_idx (iblk m c 0 t) (fusedMat m c) (biasGraph m c) j).trans ?_
  unfold regionOut
  have e0 : ((((cfg0.win 4).blk t).view.emb j) 0).val = t.val * 20000 + (j 0).val := by
    show win0_4.index t 0 * 20000 + 1 * (j 0).val = _
    rw [(row_index t).2.1]; omega
  have e1 : (((cfg0.win 4).blk t).view.emb j) 1 = j 1 := Fin.ext (by
    show win0_4.index t 1 * 128 + 1 * (j 1).val = (j 1).val
    rw [(row_index t).2.2]; omega)
  rw [e1]
  refine congrArg (· + biasGraph m c (ix2 0 (j 1))) (Finset.sum_congr rfl fun k _ => ?_)
  rw [feat_blk m c t (j 0) k _ e0]

/-- An index of the output array lies in point `t`'s block iff each coordinate lies in the block's range. -/
theorem mem_blk (t : Fin cfg0.N) (i : S100000x128.Idx) :
    i ∈ ((cfg0.win 4).blk t).view.set ↔ ∀ a : Fin 2, win0_4.index t a * S20000x128.size a ≤ (i a).val
      ∧ (i a).val < win0_4.index t a * S20000x128.size a + S20000x128.size a := by
  show i ∈ ((View.whole main_v2).slice (win0_4.rect t)).set ↔ _
  rw [View.set_slice_whole, Rect.mem_set_unit]
  exact Iff.rfl

/-- After the last write-back the output array is the output function: row `R` lies in block `R / 20000`. -/
theorem region_final (c : Dev nD) : (dats m 0 c).arrAt 4 cfg0.N = regionOut m c :=
  (dats m 0 c).arrAt_eq_of_cover 4 (regionOut m c) (fun t _ => flushed_eq m c t) (fun i => by
    have hN : cfg0.N = 5 := N_0
    have hi0 : (i 0).val < 100000 := (i 0).isLt
    have hi1 : (i 1).val < 128 := (i 1).isLt
    refine ⟨⟨(i 0).val / 20000, by rw [hN]; omega⟩, flush0_4 _, ?_⟩
    rw [mem_blk]
    intro a
    match a with
    | ⟨0, _⟩ =>
      show win0_4.index ⟨(i 0).val / 20000, _⟩ 0 * 20000 ≤ (i 0).val
        ∧ (i 0).val < win0_4.index ⟨(i 0).val / 20000, _⟩ 0 * 20000 + 20000
      rw [(row_index _).2.1]; dsimp only; omega
    | ⟨1, _⟩ =>
      show win0_4.index ⟨(i 0).val / 20000, _⟩ 1 * 128 ≤ (i 1).val
        ∧ (i 1).val < win0_4.index ⟨(i 0).val / 20000, _⟩ 1 * 128 + 128
      rw [(row_index _).2.2]; omega)

end Cert.KernelIdeal.Body

end
-- ==== Proof.Law.lean ====
/-
  The algebra that joins the two programs.

  The reference computes, for a row `x` of the features (128 entries), a weight matrix `W` (output `o`, input `i`),
  a bias `b` and a column `g` of the graph matrix,
      ∑ₒ (∑ᵢ xᵢ · Wₒᵢ + bₒ) · gₒ ,
  a linear map followed by a contraction over the hidden axis. The kernel contracts the two matrices first and
  applies the fused matrix to the row, adding the bias's own contraction:
      ∑ᵢ xᵢ · (∑ₒ Wₒᵢ · gₒ) + ∑ₒ bₒ · gₒ .
  Over the reals the two agree: distribute the outer factor over the inner sum and the bias, and exchange the two
  finite sums. Over the extended reals distributivity fails at the infinities, so the law is stated for arrays all
  of whose entries are reals, which is what the finiteness of the inputs gives.
-/
import Idealize.ShloMosaic.PureOps.Ideal
import Idealize.ShloMosaic.Lib.ValueIdx

noncomputable section

namespace Cert.MessagePassing

open Idealize.ShloMosaic Idealize.ShloMosaic.ValueIdx

/-- A finite sum of reals, formed in the extended reals, is the real sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The fusion law over the reals: distributivity, then the exchange of the two sums. -/
theorem fuse_real {n k : ℕ} (x : Fin k → ℝ) (W : Fin n → Fin k → ℝ) (g b : Fin n → ℝ) :
    ∑ o, ((∑ i, x i * W o i) + b o) * g o = (∑ i, x i * ∑ o, W o i * g o) + ∑ o, b o * g o := by
  have e1 : ∀ o, ((∑ i, x i * W o i) + b o) * g o = (∑ i, x i * (W o i * g o)) + b o * g o := fun o => by
    rw [add_mul, Finset.sum_mul]
    exact congrArg (· + b o * g o) (Finset.sum_congr rfl fun i _ => mul_assoc _ _ _)
  simp only [e1, Finset.sum_add_distrib, Finset.mul_sum]
  rw [Finset.sum_comm]

/-- The same law for extended reals that are all reals. -/
theorem fuse {n k : ℕ} (x : Fin k → EReal) (W : Fin n → Fin k → EReal) (g b : Fin n → EReal)
    (hx : ∀ i, ∃ r : ℝ, x i = r) (hW : ∀ o i, ∃ r : ℝ, W o i = r) (hg : ∀ o, ∃ r : ℝ, g o = r)
    (hb : ∀ o, ∃ r : ℝ, b o = r) :
    ∑ o, ((∑ i, x i * W o i) + b o) * g o = (∑ i, x i * ∑ o, W o i * g o) + ∑ o, b o * g o := by
  choose x' hx using hx
  choose W' hW using hW
  choose g' hg using hg
  choose b' hb using hb
  simp only [hx, hW, hg, hb, ← EReal.coe_mul, coe_sum, ← EReal.coe_add]
  exact congrArg _ (fuse_real x' W' g' b')

/-! ## The two forms of the result, over the arrays -/

/-- The features: one batch, 100000 rows, 128 entries a row. -/
abbrev SFeat : Shape := ⟨3, ![1, 100000, 128]⟩
/-- A 128 × 128 matrix (the weights, and the graph). -/
abbrev SMat : Shape := ⟨2, ![128, 128]⟩
/-- The bias. -/
abbrev SBias : Shape := ⟨1, ![128]⟩

/-- The reference's form: the linear map with its bias, then the contraction with the graph matrix over the hidden axis. -/
def chained (h : SFeat.Idx → EReal) (graph W : SMat.Idx → EReal) (b : SBias.Idx → EReal) : SFeat.Idx → EReal :=
  fun j => ∑ o : Fin 128, ((∑ i : Fin 128, h (ix3 (j 0) (j 1) i) * W (ix2 o i)) + b (ix1 o)) * graph (ix2 o (j 2))

/-- The kernel's form: the row against the fused matrix `Wᵀ · graph`, plus the bias's contraction with the graph. -/
def fused (h : SFeat.Idx → EReal) (graph W : SMat.Idx → EReal) (b : SBias.Idx → EReal) : SFeat.Idx → EReal :=
  fun j => (∑ i : Fin 128, h (ix3 (j 0) (j 1) i) * ∑ o : Fin 128, W (ix2 o i) * graph (ix2 o (j 2)))
    + ∑ o : Fin 128, b (ix1 o) * graph (ix2 o (j 2))

/-- On arrays of reals the two forms are one function. -/
theorem chained_eq_fused (h : SFeat.Idx → EReal) (graph W : SMat.Idx → EReal) (b : SBias.Idx → EReal)
    (hh : ∀ i, ∃ r : ℝ, h i = r) (hg : ∀ i, ∃ r : ℝ, graph i = r) (hW : ∀ i, ∃ r : ℝ, W i = r)
    (hb : ∀ i, ∃ r : ℝ, b i = r) : chained h graph W b = fused h graph W b := by
  funext j
  exact fuse (fun i => h (ix3 (j 0) (j 1) i)) (fun o i => W (ix2 o i)) (fun o => graph (ix2 o (j 2))) (fun o => b (ix1 o))
    (fun i => hh _) (fun o i => hW _) (fun o => hg _) (fun o => hb _)

end Cert.MessagePassing

end
-- ==== Proof.KernelValue.lean ====
/-
  The kernel's result, as a function of its four arguments.

  Before the region the features are reshaped from `[1, 100000, 128]` to `[100000, 128]` and the bias from `[128]`
  to a row `[1, 128]`; after it the output `[100000, 128]` is reshaped back to `[1, 100000, 128]`. A reshape keeps
  row-major positions, and the leading axis has one entry, so result entry `(0, t, g)` is output entry `(t, g)`,
  feature entry `(t, k)` is argument entry `(0, t, k)` and bias-row entry `(0, o)` is argument entry `o`. With the
  two carried values read as sums over the hidden axis, the result is the fused form of the law module.
-/
import proofs.«115374_g34368328302832_cont_8to1_b_213_24_alg».proof.Proof.Region
import proofs.«115374_g34368328302832_cont_8to1_b_213_24_alg».proof.Proof.Law
import Idealize.ShloMosaic.Lib.StableHlo.Run

set_option maxRecDepth 16384

noncomputable section

namespace Cert.KernelIdeal.Body

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.MessagePassing

variable (m : (ℓ : Loc nD τ sig) → Buf (Elt Ideal) ℓ) (ρ : Dev nD → PrngReg)

/-- The four arguments at their launch contents, as arrays of extended reals. -/
abbrev featArg (c : Dev nD) : SFeat.Idx → EReal := m ((c : Thread nD τ).loc main_arg0)
abbrev graphArg (c : Dev nD) : SMat.Idx → EReal := m ((c : Thread nD τ).loc main_arg1)
abbrev weightArg (c : Dev nD) : SMat.Idx → EReal := m ((c : Thread nD τ).loc main_arg2)
abbrev biasArg (c : Dev nD) : SBias.Idx → EReal := m ((c : Thread nD τ).loc main_arg3)

/-! ## The host operations around the region -/

/-- The feature rows the region finds are the first argument, reshaped. -/
theorem feat_eq (c : Dev nD) :
    featArr m c = shapeCast S100000x128 (m ((c : Thread nD τ).loc main_arg0)) shapeCasts_S1x100000x128_S100000x128 := by
  show StableHlo.after hostOps0 (fun b => m (c, b)) (Proc.devRef .tc main_v0) = _
  after_results
  rfl

/-- The bias row the region finds is the last argument, reshaped. -/
theorem biasRow_eq (c : Dev nD) :
    biasRow m c = shapeCast S1x128 (m ((c : Thread nD τ).loc main_arg3)) shapeCasts_S128_S1x128 := by
  show StableHlo.after hostOps0 (fun b => m (c, b)) (Proc.devRef .tc main_v1) = _
  after_results
  rfl

/-- The result the tail leaves is the region's output array, reshaped. -/
theorem tail_eq (c : Dev nD) :
    Pipeline.afterTail₀ cfgs (dats m) 0 (V0 m) [hostOps1] c main_v3
      = shapeCast S1x100000x128 (regionOut m c) shapeCasts_S100000x128_S1x100000x128 := by
  unfold Pipeline.afterTail₀
  show StableHlo.after hostOps1 _ (Proc.devRef .tc main_v3) = _
  after_results
  have e : Pipeline.withArrays (cfgs 0).spec c (V0 m c) (fun w => (dats m 0 c).arrAt w (cfgs 0).N)
      (Proc.devRef .tc main_v2) = regionOut m c :=
    (Pipeline.withArrays_arr spec0 launch0.win.arr_inj c _ _ 4).trans (region_final m c)
  rw [e]
  rfl

/-- The graph and the weights reach the region as launched. -/
theorem graphArr_eq (c : Dev nD) : graphArr m c = graphArg m c := V_main_arg1 m c
theorem weightArr_eq (c : Dev nD) : weightArr m c = weightArg m c := V_main_arg2 m c

/-! ## The reshapes at an index -/

/-- Feature entry `(t, k)` is argument entry `(z, t, k)`, `z` the one index of the leading axis. -/
theorem feat_apply (c : Dev nD) (z : Fin 1) (t : Fin 100000) (k : Fin 128) :
    featArr m c (ix2 t k) = m ((c : Thread nD τ).loc main_arg0) (ix3 z t k) := by
  rw [feat_eq]
  refine shapeCast_apply _ _ (ix2 t k) (ix3 z t k) ?_
  rw [Shape.rowMajor_val_three, Shape.rowMajor_val_two]
  show (z.val * 100000 + t.val) * 128 + k.val = t.val * 128 + k.val
  have hz1 : z.val < 1 := z.isLt
  omega

/-- Bias-row entry `(z, o)` is argument entry `o`. -/
theorem biasRow_apply (c : Dev nD) (z : Fin 1) (o : Fin 128) :
    biasRow m c (ix2 z o) = m ((c : Thread nD τ).loc main_arg3) (ix1 o) := by
  rw [biasRow_eq]
  refine shapeCast_apply _ _ (ix2 z o) (ix1 o) ?_
  rw [Shape.rowMajor_val_one, Shape.rowMajor_val_two]
  show o.val = z.val * 128 + o.val
  have hz1 : z.val < 1 := z.isLt
  omega

/-! ## The result is the fused form -/

/-- The reshaped output array is the fused form of the four arguments. -/
theorem result_eq_fused (c : Dev nD) :
    shapeCast S1x100000x128 (regionOut m c) shapeCasts_S100000x128_S1x100000x128
      = fused (m ((c : Thread nD τ).loc main_arg0)) (m ((c : Thread nD τ).loc main_arg1)) (m ((c : Thread nD τ).loc main_arg2)) (m ((c : Thread nD τ).loc main_arg3)) := by
  funext j
  obtain ⟨z, t, g, rfl⟩ : ∃ (z : Fin 1) (t : Fin 100000) (g : Fin 128), j = ix3 z t g := ⟨j 0, j 1, j 2, eq_ix3 j⟩
  rw [shapeCast_apply (regionOut m c) shapeCasts_S100000x128_S1x100000x128 (ix3 z t g) (ix2 t g) (by
    rw [Shape.rowMajor_val_three, Shape.rowMajor_val_two]
    show t.val * 128 + g.val = (z.val * 100000 + t.val) * 128 + g.val
    have hz1 : z.val < 1 := z.isLt
    omega)]
  show (∑ k : Fin 128, featArr m c (ix2 t k) * k0_pay1 (F := Ideal) (weightArr m c) (graphArr m c) (ix2 k g))
        + k0_pay2 (F := Ideal) (biasRow m c) (graphArr m c) (ix2 0 g)
      = (∑ i : Fin 128, featArg m c (ix3 z t i)
          * ∑ o : Fin 128, weightArg m c (ix2 o i) * graphArg m c (ix2 o g))
        + ∑ o : Fin 128, biasArg m c (ix1 o) * graphArg m c (ix2 o g)
  rw [biasg_apply]
  refine congrArg₂ (· + ·) (Finset.sum_congr rfl fun k _ => ?_) (Finset.sum_congr rfl fun o _ => ?_)
  · rw [fused_apply, feat_apply m c z t k, weightArr_eq, graphArr_eq]
  · rw [biasRow_apply m c 0 o, graphArr_eq]

/-! ## The run -/

/-- Every weakly fair execution of the kernel program terminates with its result at the fused form of the four
    arguments and the arguments unchanged. -/
theorem run : θ_run defs (onTc (τ := τ) (main (F := Ideal))) ⟨m, fun _ => 0, ρ⟩ fun r => ∀ c : Dev nD,
      r.2.mem ((c.tc : Thread nD τ).loc main_v3)
        = fused (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(((h c).2 main_v3 (Pipeline.mem_restRefs_of main_v3 (by decide) (by decide))).trans (tail_eq m c)).trans
        (result_eq_fused m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.Body

end
-- ==== Proof.Reference.lean ====
/-
  The reference, read at an index.

  Its five operations are: the features against the weights (contracting the input axis), the bias broadcast along
  batch and rows, their sum, and that sum against the graph matrix (contracting the hidden axis). Read one operation
  at a time at an index `(0, t, g)`, the result is
      ∑ₒ (∑ᵢ h[0, t, i] · W[o, i] + b[o]) · graph[o, g] ,
  the chained form of the law module.
-/
import proofs.«115374_g34368328302832_cont_8to1_b_213_24_alg».proof.Proof.Gen.ReferenceIdeal.Read
import proofs.«115374_g34368328302832_cont_8to1_b_213_24_alg».proof.Proof.Law

noncomputable section

namespace Cert.MessagePassing

open Idealize.ShloMosaic Idealize.ShloMosaic.ValueIdx Cert.ReferenceIdeal Cert.ReferenceIdeal.Read

/-- The reference's result, as a function of the four arguments, is the chained form. -/
theorem reference_eq_chained (h : SFeat.Idx → EReal) (graph W : SMat.Idx → EReal) (b : SBias.Idx → EReal) :
    val_main_v4 (F := Ideal) h graph W b = chained h graph W b := by
  funext j
  rw [val_main_v4_apply]
  unfold chained
  refine Finset.sum_congr rfl fun o _ => ?_
  rw [val_main_v3_apply, val_main_v0_apply, val_main_v2_apply, val_main_v1_apply]
  have eh : ∀ i : Fin 128, lidx_main_v0 (lidx_main_v4 j o) i = ix3 (j 0) (j 1) i := fun i =>
    funext fun a => Fin.ext (by match a with | ⟨0, _⟩ => rfl | ⟨1, _⟩ => rfl | ⟨2, _⟩ => rfl)
  have eW : ∀ i : Fin 128, ridx_main_v0 (lidx_main_v4 j o) i = ix2 o i := fun i =>
    funext fun a => Fin.ext (by match a with | ⟨0, _⟩ => rfl | ⟨1, _⟩ => rfl)
  have eb : idx_main_v1 (idx_main_v2 (lidx_main_v4 j o)) = ix1 o :=
    funext fun a => Fin.ext (by match a with | ⟨0, _⟩ => rfl)
  have eg : ridx_main_v4 j o = ix2 o (j 2) :=
    funext fun a => Fin.ext (by match a with | ⟨0, _⟩ => rfl | ⟨1, _⟩ => rfl)
  simp only [eh, eW, eb, eg]
  rfl

end Cert.MessagePassing

end
-- ==== Proof.Finite.lean ====
/-
  Finite inputs are arrays of reals.

  The precondition tests, for each of the four inputs, that every entry's absolute value is below `+∞`, and
  conjoins the four tests. Over the extended reals the absolute value of `x` is `max x (-x)`, which is `+∞` at
  both infinities; so an entry that passes is neither, hence a real number. This is what the fusion law needs.
-/
import proofs.«115374_g34368328302832_cont_8to1_b_213_24_alg».proof.Proof.Gen.Pre_finite_inputs
import Idealize.ShloMosaic.Lib.ReduceAll
import Idealize.ShloMosaic.Lib.ValueIdx
import Idealize.ShloMosaic.PureOps.Ideal

noncomputable section

namespace Cert.MessagePassing

open Idealize.ShloMosaic Idealize.ShloMosaic.ValueIdx Cert.Pre_finite_inputs

/-- A rank-0 shape has one index. -/
instance : Subsingleton S_.Idx := ⟨fun a b => funext fun d => d.elim0⟩

/-- The pattern the test compares against denotes `+∞`. -/
theorem inf_pattern : Ideal.ofBits .f32 0x7F800000#32 = (⊤ : EReal) := by
  simp [Ideal.ofBits, Ideal.ieee]

/-- An extended real whose absolute value is below `+∞` is a real. -/
theorem real_of_abs_lt_top (x : EReal) (h : Ideal.cmp .olt (max x (-x)) ⊤ = 1#1) : ∃ r : ℝ, x = r := by
  induction x using EReal.rec with
  | bot => simp [Ideal.cmp] at h
  | top => simp [Ideal.cmp] at h
  | coe r => exact ⟨r, rfl⟩

/-- One input's test: if the conjunction over all entries of `|x| < +∞` is true, every entry is a real. -/
theorem all_real {s : Shape} {axes : List (Fin s.rank)} (x : FVec Ideal s .f32)
    (hb : S_.BroadcastsInDim s (![] : Fin 0 → Fin s.rank)) (hr : s.ReducesTo axes S_) (hu : 0 < S_.numel)
    (init : S_.Idx → BitVec 1)
    (e : Host.reduce IntOp.andi (cmpf .olt (Host.absf x) (broadcastInDim s ![] hb (constant S_ .f32 0x7F800000#32)))
      init hr hu ix0 = 1#1) (i : s.Idx) : ∃ r : ℝ, x i = r := by
  have h1 := Host.reduce_andi_all _ init hr hu ix0 e i
  have h2 : Ideal.cmp .olt (max (x i) (-(x i))) (Ideal.ofBits .f32 0x7F800000#32) = 1#1 := h1
  rw [inf_pattern] at h2
  exact real_of_abs_lt_top (x i) h2

/-- The precondition, read: all four inputs are arrays of reals. -/
theorem inputs_real (a0 : FVec Ideal S1x100000x128 .f32) (a1 a2 : FVec Ideal S128x128 .f32) (a3 : FVec Ideal S128 .f32)
    (h : Cert.Pre_finite_inputs.fn (F := Ideal) a0 a1 a2 a3 = fun _ => 1#1) :
    (∀ i, ∃ r : ℝ, a0 i = r) ∧ (∀ i, ∃ r : ℝ, a1 i = r) ∧ (∀ i, ∃ r : ℝ, a2 i = r) ∧ (∀ i, ∃ r : ℝ, a3 i = r) := by
  have h0 := congrFun h ix0
  dsimp only [fn, fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨all_real a0 _ _ _ _ h0', all_real a1 _ _ _ _ h1, all_real a2 _ _ _ _ h2, all_real a3 _ _ _ _ h3⟩

end Cert.MessagePassing

end
-- ==== Proof.lean ====
/-
  Message passing with a linear message and a sum aggregation, fused.

  The reference maps every feature row through a linear layer, `h · Wᵀ + b`, and contracts the messages with the
  graph matrix over the hidden axis. The kernel contracts the weights with the graph once, `M = Wᵀ · graph`, and
  the bias with the graph, `b · graph`, at the first of its five grid points, keeps both, and at every point
  multiplies a block of 20000 feature rows by `M` and adds the contracted bias. Over the reals the two results agree
  by distributivity and the exchange of two finite sums; the inputs being finite, every entry is a real and the
  same holds over the extended reals.

  The steps, one module each: what one run of the body stores (Pieces); the two carried buffers and the output
  block after every point, by induction on the point (Carried); the three stored values read at an index as sums
  (Payloads); the output array as one function of the arrays, its five blocks covering it (Region); the reshapes
  around the region and the kernel's result as the fused form (KernelValue); the reference read as the chained form
  (Reference); finite inputs as arrays of reals (Finite); the law joining the two forms (Law). The kernel's frame
  and its contents point by point, and the reference's run read one operation at a time, come from the generated
  modules imported here.
-/
import proofs.«115374_g34368328302832_cont_8to1_b_213_24_alg».proof.Defs
import proofs.«115374_g34368328302832_cont_8to1_b_213_24_alg».proof.Proof.Gen.Kernel
import proofs.«115374_g34368328302832_cont_8to1_b_213_24_alg».proof.Proof.Gen.Kernel.Frame
import proofs.«115374_g34368328302832_cont_8to1_b_213_24_alg».proof.Proof.Gen.KernelIdeal
import proofs.«115374_g34368328302832_cont_8to1_b_213_24_alg».proof.Proof.Gen.KernelIdeal.Frame
import proofs.«115374_g34368328302832_cont_8to1_b_213_24_alg».proof.Proof.Gen.ReferenceIdeal
import proofs.«115374_g34368328302832_cont_8to1_b_213_24_alg».proof.Proof.Gen.ReferenceIdeal.Run
import proofs.«115374_g34368328302832_cont_8to1_b_213_24_alg».proof.Proof.Gen.ReferenceIdeal.Read
import proofs.«115374_g34368328302832_cont_8to1_b_213_24_alg».proof.Proof.Gen.Pre_finite_inputs
import proofs.«115374_g34368328302832_cont_8to1_b_213_24_alg».proof.Proof.KernelValue
import proofs.«115374_g34368328302832_cont_8to1_b_213_24_alg».proof.Proof.Reference
import proofs.«115374_g34368328302832_cont_8to1_b_213_24_alg».proof.Proof.Finite
import Idealize.ShloMosaic.Adequacy
import Idealize.ShloMosaic.Init

noncomputable section

namespace Cert.Proof

open Idealize.ShloMosaic Idealize.ShloMosaic.TcCoe Idealize.SL.Sem Cert.MessagePassing

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the fused form of the kernel's arguments: the kernel by its run, the reference because
    its chained form, at arguments that agree and are arrays of reals, is the fused form. -/
theorem algebraic : Cert.algebraic_KernelIdeal_ReferenceIdeal := by
  intro m ρ m' ρ' hpre hagree
  refine ⟨fun c => fused (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3⟩ := hagree c
  obtain ⟨r0, r1, r2, r3⟩ := inputs_real _ _ _ _ (hpre c)
  rw [Cert.ReferenceIdeal.Read.val_main_v4_eq, reference_eq_chained, e0, e1, e2, e3]
  exact chained_eq_fused _ _ _ _ r0 r1 r2 r3

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
